-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096 .f32) (main_arg5 : FVec F S4096 .f32) (main_arg6 : FVec F S4096x1024 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S1024x4096 .f32) (main_arg2 : FVec F S4096 .f32) (main_arg3 : FVec F S4096 .f32) (main_arg4 : FVec F S4096 .f32) (main_arg5 : FVec F S4096 .f32) (main_arg6 : FVec F S4096x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 19
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8192x1024, .f32⟩
  | .hbm, ⟨9, _⟩ => ⟨S8192x1024, .bf16⟩
  | .hbm, ⟨10, _⟩ => ⟨S1024x4096, .bf16⟩
  | .hbm, ⟨11, _⟩ => ⟨S4096x1024, .bf16⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x1024, .f32⟩
  | .hbm, ⟨17, _⟩ => ⟨S8192x1024, .f32⟩
  | .hbm, ⟨18, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S4096x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x1024.size a ≤ S4096x1024.size a
  hwx0_6 : ∀ i : grid0.Coords, EltTy.bits .bf16 = 32 ∨ (Rect.block (s := S4096x1024) S4096x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S4096x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S_, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The feed-forward block as one function of its arguments, entry by entry, over the extended reals.

  For one row `xr` of the input (1024 numbers) the block computes, per hidden channel f of 4096,
      h f   = (Σ k, xr k · W1 k f) + b1 f                                   the first affine layer,
      q f   = h f + ((cos θ_f · wr_f + sin θ_f · wi_f) · (wi_f · sin (θ_f + h f · c))) · c     the phase transform,
      a f   = max (q f) 0                                                   the rectifier,
  and then, per output channel d of 1024,
      out d = (Σ f, a f · W2 f d) + b2 d                                    the second affine layer,
  where `c` is the single-precision number nearest one tenth, the same on both sides and never evaluated, and `0`
  is the zero word. Both programs compute exactly this expression in exactly this association, so no law of
  arithmetic beyond reading each operation at an entry is needed, and no finiteness.

  The arrays enter as curried functions of their coordinates, so that a row of the flattened 8192 × 1024 input and a
  row of the 4 × 2048 × 1024 input are the same argument.
-/
import Idealize.ShloMosaic.PureOps.Ideal
import Idealize.ShloMosaic.Lib.ValueIdx

noncomputable section

namespace Cert.Spec

open Idealize.ShloMosaic

/-- The shared literal: the single-precision number nearest 1/10, as the extended real it denotes. -/
abbrev tenth : EReal := Ideal.ofBits .f32 0x3DCCCCCD#32
/-- The rectifier's threshold: the zero word. -/
abbrev zero : EReal := Ideal.ofBits .f32 0x00000000#32

/-- The first affine layer at hidden channel `f`, for one input row. -/
def hidden (xr : Fin 1024 → EReal) (W1 : Fin 1024 → Fin 4096 → EReal) (b1 : Fin 4096 → EReal) (f : Fin 4096) : EReal :=
  (∑ k : Fin 1024, xr k * W1 k f) + b1 f

/-- The phase transform followed by the rectifier, on one hidden value with its channel's three parameters. -/
def act (h θ wr wi : EReal) : EReal :=
  max (h + ((Ideal.cos θ * wr + Ideal.sin θ * wi) * (wi * Ideal.sin (θ + h * tenth))) * tenth) zero

/-- The whole block at output channel `d`, for one input row. -/
def rowOut (xr : Fin 1024 → EReal) (W1 : Fin 1024 → Fin 4096 → EReal) (b1 θ wr wi : Fin 4096 → EReal)
    (W2 : Fin 4096 → Fin 1024 → EReal) (b2 : Fin 1024 → EReal) (d : Fin 1024) : EReal :=
  (∑ f : Fin 4096, act (hidden xr W1 b1 f) (θ f) (wr f) (wi f) * W2 f d) + b2 d

/-- The block depends on its arguments only through their entries. -/
theorem rowOut_congr {xr xr' : Fin 1024 → EReal} {W1 W1' : Fin 1024 → Fin 4096 → EReal} {b1 b1' θ θ' wr wr' wi wi' : Fin 4096 → EReal}
    {W2 W2' : Fin 4096 → Fin 1024 → EReal} {b2 b2' : Fin 1024 → EReal} {d d' : Fin 1024}
    (hx : ∀ k, xr k = xr' k) (hW1 : ∀ k f, W1 k f = W1' k f) (hb1 : ∀ f, b1 f = b1' f) (hθ : ∀ f, θ f = θ' f)
    (hwr : ∀ f, wr f = wr' f) (hwi : ∀ f, wi f = wi' f) (hW2 : ∀ f d, W2 f d = W2' f d) (hb2 : ∀ d, b2 d = b2' d) (hd : d = d') :
    rowOut xr W1 b1 θ wr wi W2 b2 d = rowOut xr' W1' b1' θ' wr' wi' W2' b2' d' := by
  obtain rfl : xr = xr' := funext hx
  obtain rfl : W1 = W1' := funext fun k => funext (hW1 k)
  obtain rfl : b1 = b1' := funext hb1
  obtain rfl : θ = θ' := funext hθ
  obtain rfl : wr = wr' := funext hwr
  obtain rfl : wi = wi' := funext hwi
  obtain rfl : W2 = W2' := funext fun f => funext (hW2 f)
  obtain rfl : b2 = b2' := funext hb2
  subst hd
  rfl

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.KBody.lean ====
/-
  What one grid point writes, read at an entry.

  The kernel body works on a block of 256 input rows. Its result at row p and output channel d is the feed-forward
  block of the specification applied to row p of the input block: the first product into a zero accumulator is the plain
  sum over the 1024 input channels, the bias and the three per-channel parameter rows are repeated down the 256 rows, the
  conversion to the narrow float format is the identity on extended reals, and the second product is the plain sum over
  the 4096 hidden channels.
-/
import proofs.«102252_j39960375722236_1_alg».proof.Proof.Gen.KernelIdeal.Frame
import proofs.«102252_j39960375722236_1_alg».proof.Proof.Spec
import proofs.«102252_j39960375722236_1_alg».proof.Proof.LibPlainDot
import proofs.«102252_j39960375722236_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.RowBroadcast

/-- Sine and cosine of a vector, at an entry. -/
theorem sin_apply {s : Shape} {φ : FTy} (x : FVec Ideal s φ) (i : s.Idx) : sin x i = Ideal.sin (x i) := rfl
theorem cos_apply {s : Shape} {φ : FTy} (x : FVec Ideal s φ) (i : s.Idx) : cos x i = Ideal.cos (x i) := rfl

/-- The first affine layer on the block: the product into the zero accumulator plus the bias row repeated down the rows,
    at row `p` and hidden channel `f`. -/
theorem hidden_apply (v0 : Vec Ideal S256x1024 .bf16) (v2 : Vec Ideal S1024x4096 .bf16) (v5 : Vec Ideal S1x4096 .f32)
    (p : Fin 256) (f : Fin 4096) :
    addf (F := Ideal) (matmul (F := Ideal) (φ₁ := .bf16) (φ₂ := .bf16) dot_S256x1024_S1024x4096_S256x4096_1_0_0_1_n_n none v0 v2 (constant (F := Ideal) S256x4096 .f32 0x00000000#32))
        (broadcastTo S256x4096 v5 broadcasts_S1x4096_S256x4096) (ix2 p f)
      = Cert.Spec.hidden (fun k => v0 (ix2 p k)) (fun k f => v2 (ix2 k f)) (fun f => v5 (ix2 (0 : Fin 1) f)) f := by
  rw [addf_apply, broadcastTo_row]
  exact congrArg (· + v5 (ix2 (0 : Fin 1) f))
    (Cert.LibPlainDot.matmul_zero_apply (φ₁ := .bf16) (φ₂ := .bf16) dot_S256x1024_S1024x4096_S256x4096_1_0_0_1_n_n rfl rfl rfl rfl rfl rfl none v0 v2 p f)

/-- The phase transform, the rectifier and the narrowing conversion on a block of hidden values `H`, at an entry: the
    three parameter rows are read at the entry's channel. -/
theorem act_apply (H : FVec Ideal S256x4096 .f32) (v9 v11 v13 : Vec Ideal S1x4096 .f32) (p : Fin 256) (f : Fin 4096) :
    truncf .bf16 (maximumf (addf H (mulf (mulf (broadcastTo S256x4096 (addf (mulf (cos v9) v11) (mulf (sin v9) v13)) broadcasts_S1x4096_S256x4096)
        (mulf (broadcastTo S256x4096 v13 broadcasts_S1x4096_S256x4096) (sin (addf (broadcastTo S256x4096 v9 broadcasts_S1x4096_S256x4096)
          (mulf H (broadcast S256x4096 (FloatOps.ofBits .f32 0x3DCCCCCD#32))))))) (broadcast S256x4096 (FloatOps.ofBits .f32 0x3DCCCCCD#32))))
        (broadcast S256x4096 (FloatOps.ofBits .f32 0x00000000#32))) bitsLt_bf16_f32 (ix2 p f)
      = Cert.Spec.act (H (ix2 p f)) (v9 (ix2 (0 : Fin 1) f)) (v11 (ix2 (0 : Fin 1) f)) (v13 (ix2 (0 : Fin 1) f)) := by
  simp only [truncf_apply, maximumf_apply, addf_apply, mulf_apply, broadcast_apply, broadcastTo_row, sin_apply, cos_apply,
    Ideal.ofBits_def]
  rfl

/-- The body's product stage (everything before the last bias) at row `p`, output channel `d`. -/
theorem pay2_apply (v0 : Vec Ideal S256x1024 .bf16) (v2 : Vec Ideal S1024x4096 .bf16) (v5 v9 v11 v13 : Vec Ideal S1x4096 .f32)
    (v35 : Vec Ideal S4096x1024 .bf16) (p : Fin 256) (d : Fin 1024) :
    k0_pay2 (F := Ideal) v0 v2 v5 v9 v11 v13 v35 (ix2 p d)
      = ∑ f : Fin 4096, Cert.Spec.act (Cert.Spec.hidden (fun k => v0 (ix2 p k)) (fun k f => v2 (ix2 k f)) (fun f => v5 (ix2 (0 : Fin 1) f)) f)
          (v9 (ix2 (0 : Fin 1) f)) (v11 (ix2 (0 : Fin 1) f)) (v13 (ix2 (0 : Fin 1) f)) * v35 (ix2 f d) := by
  unfold k0_pay2
  simp only [shapeCast_self]
  refine (Cert.LibPlainDot.matmul_zero_apply (φ₁ := .bf16) (φ₂ := .bf16) dot_S256x4096_S4096x1024_S256x1024_1_0_0_1_n_n rfl rfl rfl rfl rfl rfl none _ v35 p d).trans ?_
  refine Finset.sum_congr rfl fun f _ => ?_
  refine congrArg (· * v35 (ix2 f d)) ?_
  rw [act_apply, hidden_apply]

/-- The body's stored value at row `p`, output channel `d`: the specification's block on row `p` of the input block. -/
theorem pay1_apply (v0 : Vec Ideal S256x1024 .bf16) (v2 : Vec Ideal S1024x4096 .bf16) (v5 v9 v11 v13 : Vec Ideal S1x4096 .f32)
    (v35 : Vec Ideal S4096x1024 .bf16) (v38 : Vec Ideal S1x1024 .f32) (p : Fin 256) (d : Fin 1024) :
    k0_pay1 (F := Ideal) (k0_pay2 v0 v2 v5 v9 v11 v13 v35) v38 (ix2 p d)
      = Cert.Spec.rowOut (fun k => v0 (ix2 p k)) (fun k f => v2 (ix2 k f)) (fun f => v5 (ix2 (0 : Fin 1) f))
          (fun f => v9 (ix2 (0 : Fin 1) f)) (fun f => v11 (ix2 (0 : Fin 1) f)) (fun f => v13 (ix2 (0 : Fin 1) f))
          (fun f d => v35 (ix2 f d)) (fun d => v38 (ix2 (0 : Fin 1) d)) d := by
  unfold k0_pay1
  simp only [shapeCast_self]
  rw [addf_apply, broadcastTo_row, pay2_apply]
  rfl

end Cert.KernelIdeal.Body

end
-- ==== Proof.KBlocks.lean ====
/-
  From blocks to the array.

  The grid has 32 points; point t works on rows 256 t … 256 t + 255 of the flattened 8192 × 1024 input and writes the
  same rows of the 8192 × 1024 result, while the two weight matrices and the four parameter rows and the output bias are
  read whole at every point. So what point t writes back is block t of ONE function `G2` of the operand arrays — row r
  of the result is the specification's block on row r of the input — and since the 32 blocks tile the rows, the array
  the region leaves is `G2`.
-/
import proofs.«102252_j39960375722236_1_alg».proof.Proof.KBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem hz : (![0, 0] : Fin 2 → Nat) = fun _ => 0 := funext fun a => by fin_cases a <;> rfl

/-- The 8192 × 1024 array the region leaves, as a function of the region's eight operand arrays: row r is the
    specification's block on row r of the flattened input. -/
def G2 (A0 : S8192x1024.Idx → EReal) (A1 : S1024x4096.Idx → EReal) (A2 A3 A4 A5 : S1x4096.Idx → EReal)
    (A6 : S4096x1024.Idx → EReal) (A7 : S1x1024.Idx → EReal) : S8192x1024.Idx → EReal := fun i =>
  Cert.Spec.rowOut (fun k => A0 (ix2 (i 0) k)) (fun k f => A1 (ix2 k f)) (fun f => A2 (ix2 (0 : Fin 1) f))
    (fun f => A3 (ix2 (0 : Fin 1) f)) (fun f => A4 (ix2 (0 : Fin 1) f)) (fun f => A5 (ix2 (0 : Fin 1) f))
    (fun f d => A6 (ix2 f d)) (fun d => A7 (ix2 (0 : Fin 1) d)) (i 1)

theorem idx_facts : ∀ t : Fin cfg0.N, win0_0.index t (0 : Fin 2) = win0_8.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem flushed8_eq (c : Dev nD) (t : Fin cfg0.N) :
    (dats m 0 c).flushed 8 t = ((cfg0.win 8).blk t).view.read (Elt Ideal)
      (G2 (V m c main_v1) (V m c main_v2) (V m c main_v4) (V m c main_v5) (V m c main_v6) (V m c main_v7) (V m c main_v3) (V m c main_v8)) := by
  show (cfg0.win 8).cut (grid0.coords t) ((dats m 0 c).after 8 t) = _
  rw [after0_8]
  unfold out0_8
  rw [View.canon_unit_zero hz]
  simp only [View.ld_unit_zero (S := S256x1024) hz, View.ld_unit_zero (S := S1024x4096) hz, View.ld_unit_zero (S := S1x4096) hz,
    View.ld_unit_zero (S := S4096x1024) hz, View.ld_unit_zero (S := S1x1024) hz]
  funext j
  obtain ⟨p, q, rfl⟩ : ∃ (p : Fin 256) (q : Fin 1024), j = ix2 p q := ⟨j 0, j 1, eq_ix2 j⟩
  show k0_pay1 (k0_pay2 (iblk m c 0 t) (iblk m c 1 t) (iblk m c 2 t) (iblk m c 3 t) (iblk m c 4 t) (iblk m c 5 t) (iblk m c 6 t)) (iblk m c 7 t) (ix2 p q)
    = G2 (V m c main_v1) (V m c main_v2) (V m c main_v4) (V m c main_v5) (V m c main_v6) (V m c main_v7) (V m c main_v3) (V m c main_v8) (((cfg0.win 8).blk t).view.emb (ix2 p q))
  rw [Cert.KernelIdeal.Body.pay1_apply]
  unfold G2
  obtain ⟨e00, e01, e10, e11, e20, e21, e30, e31, e40, e41, e50, e51, e60, e61, e70, e71, e80, e81⟩ := idx_facts t
  refine Cert.Spec.rowOut_congr (fun k => ?_) (fun k f => ?_) (fun f => ?_) (fun f => ?_) (fun f => ?_) (fun f => ?_) (fun f d => ?_) (fun d => ?_) ?_
  · show V m c main_v1 (((cfg0.win 0).blk t).view.emb (ix2 p k)) = V m c main_v1 (ix2 (((cfg0.win 8).blk t).view.emb (ix2 p q) 0) k)
    refine congrArg (V m c main_v1) (funext fun a => Fin.ext ?_)
    match a with
    | ⟨0, _⟩ => show win0_0.index t (0 : Fin 2) * 256 + 1 * p.val = win0_8.index t (0 : Fin 2) * 256 + 1 * p.val; omega
    | ⟨1, _⟩ => show win0_0.index t (1 : Fin 2) * 1024 + 1 * k.val = k.val; omega
  · show V m c main_v2 (((cfg0.win 1).blk t).view.emb (ix2 k f)) = V m c main_v2 (ix2 k f)
    refine congrArg (V m c main_v2) (funext fun a => Fin.ext ?_)
    match a with
    | ⟨0, _⟩ => show win0_1.index t (0 : Fin 2) * 1024 + 1 * k.val = k.val; omega
    | ⟨1, _⟩ => show win0_1.index t (1 : Fin 2) * 4096 + 1 * f.val = f.val; omega
  · show V m c main_v4 (((cfg0.win 2).blk t).view.emb (ix2 (0 : Fin 1) f)) = V m c main_v4 (ix2 (0 : Fin 1) f)
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 4096 + 1 * f.val = f.val; omega
  · show V m c main_v5 (((cfg0.win 3).blk t).view.emb (ix2 (0 : Fin 1) f)) = V m c main_v5 (ix2 (0 : Fin 1) f)
    refine congrArg (V m c main_v5) (funext fun a => Fin.ext ?_)
    match a with
    | ⟨0, _⟩ => show win0_3.index t (0 : Fin 2) * 1 + 1 * 0 = 0; omega
    | ⟨1, _⟩ => show win0_3.index t (1 : Fin 2) * 4096 + 1 * f.val = f.val; omega
  · show V m c main_v6 (((cfg0.win 4).blk t).view.emb (ix2 (0 : Fin 1) f)) = V m c main_v6 (ix2 (0 : Fin 1) f)
    refine congrArg (V m c main_v6) (funext fun a => Fin.ext ?_)
    match a with
    | ⟨0, _⟩ => show win0_4.index t (0 : Fin 2) * 1 + 1 * 0 = 0; omega
    | ⟨1, _⟩ => show win0_4.index t (1 : Fin 2) * 4096 + 1 * f.val = f.val; omega
  · show V m c main_v7 (((cfg0.win 5).blk t).view.emb (ix2 (0 : Fin 1) f)) = V m c main_v7 (ix2 (0 : Fin 1) f)
    refine congrArg (V m c main_v7) (funext fun a => Fin.ext ?_)
    match a with
    | ⟨0, _⟩ => show win0_5.index t (0 : Fin 2) * 1 + 1 * 0 = 0; omega
    | ⟨1, _⟩ => show win0_5.index t (1 : Fin 2) * 4096 + 1 * f.val = f.val; omega
  · show V m c main_v3 (((cfg0.win 6).blk t).view.emb (ix2 f d)) = V m c main_v3 (ix2 f d)
    refine congrArg (V m c main_v3) (funext fun a => Fin.ext ?_)
    match a with
    | ⟨0, _⟩ => show win0_6.index t (0 : Fin 2) * 4096 + 1 * f.val = f.val; omega
    | ⟨1, _⟩ => show win0_6.index t (1 : Fin 2) * 1024 + 1 * d.val = d.val; omega
  · show V m c main_v8 (((cfg0.win 7).blk t).view.emb (ix2 (0 : Fin 1) d)) = V m c main_v8 (ix2 (0 : Fin 1) d)
    refine congrArg (V m c main_v8) (funext fun a => Fin.ext ?_)
    match a with
    | ⟨0, _⟩ => show win0_7.index t (0 : Fin 2) * 1 + 1 * 0 = 0; omega
    | ⟨1, _⟩ => show win0_7.index t (1 : Fin 2) * 1024 + 1 * d.val = d.val; omega
  · refine Fin.ext ?_
    show q.val = win0_8.index t (1 : Fin 2) * 1024 + 1 * q.val
    omega

/-- An index of the array lies in point `t`'s block iff each coordinate lies in the block's range on its axis. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9).slice (win0_8.rect t)).set ↔ _
  rw [View.set_slice_whole, Rect.mem_set_unit]
  exact Iff.rfl

/-- The 32 blocks of 256 rows tile the 8192 rows: row r lies in the block of point r / 256. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : grid0.N = 32 := N_0
  let t : Fin cfg0.N := ⟨(i 0).val / 256, by show (i 0).val / 256 < grid0.N; omega⟩
  have ht : t.val = (i 0).val / 256 := rfl
  obtain ⟨-, -, -, -, -, -, -, -, -, -, -, -, -, -, -, -, e80, e81⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- The array the region leaves is `G2` of the operand arrays as the region finds them. -/
theorem final8 (c : Dev nD) : (dats m 0 c).arrAt 8 cfg0.N
    = G2 (V m c main_v1) (V m c main_v2) (V m c main_v4) (V m c main_v5) (V m c main_v6) (V m c main_v7) (V m c main_v3) (V m c main_v8) :=
  (dats m 0 c).arrAt_eq_of_cover 8 _ (fun t _ => flushed8_eq m c t) cover8

end Cert.KernelIdeal.Blocks

end
-- ==== Proof.Whole.lean ====
/-
  The result as a 4 × 2048 × 1024 array, and the changes of layout between it and the flattened form.

  `G3` is the block applied to every row (b, s) of the input. A reshape keeps the row-major position, so row
  2048 b + s of the 8192-row form is row (b, s) of the 4 × 2048 form, and entry (0, f) of a vector laid out as one row
  is entry f of the vector.
-/
import proofs.«102252_j39960375722236_1_alg».proof.Proof.Spec
import Idealize.ShloMosaic.Lib.Pipeline.Value
import Idealize.ShloMosaic.Lib.ValueIdx

noncomputable section

namespace Cert.Spec

open Idealize.ShloMosaic Idealize.ShloMosaic.ValueIdx

/-- The whole result: entry (b, s, d) is the block on input row (b, s), at output channel d. -/
def G3 (x : (⟨3, ![4, 2048, 1024]⟩ : Shape).Idx → EReal) (W1 : (⟨2, ![1024, 4096]⟩ : Shape).Idx → EReal)
    (b1 θ wr wi : (⟨1, ![4096]⟩ : Shape).Idx → EReal) (W2 : (⟨2, ![4096, 1024]⟩ : Shape).Idx → EReal)
    (b2 : (⟨1, ![1024]⟩ : Shape).Idx → EReal) : (⟨3, ![4, 2048, 1024]⟩ : Shape).Idx → EReal := fun i =>
  rowOut (fun k => x (ix3 (i 0) (i 1) k)) (fun k f => W1 (ix2 k f)) (fun f => b1 (ix1 f)) (fun f => θ (ix1 f))
    (fun f => wr (ix1 f)) (fun f => wi (ix1 f)) (fun f d => W2 (ix2 f d)) (fun d => b2 (ix1 d)) (i 2)

/-- Flattening the two leading axes: row r = 2048 b + s of the flat form is row (b, s). -/
theorem flatten_apply {α : Type} (x : (⟨3, ![4, 2048, 1024]⟩ : Shape).Idx → α)
    (h : (⟨3, ![4, 2048, 1024]⟩ : Shape).ShapeCasts ⟨2, ![8192, 1024]⟩) (b : Fin 4) (s : Fin 2048) (k : Fin 1024)
    (r : Fin 8192) (hr : r.val = b.val * 2048 + s.val) :
    shapeCast ⟨2, ![8192, 1024]⟩ x h (ix2 r k) = x (ix3 b s k) :=
  shapeCast_apply x h _ _ (by
    rw [Shape.rowMajor_val_three, Shape.rowMajor_val_two]
    show (b.val * 2048 + s.val) * 1024 + k.val = r.val * 1024 + k.val
    rw [hr])

/-- Splitting the leading axis back: entry (b, s, d) of the 4 × 2048 form is entry (2048 b + s, d) of the flat form. -/
theorem unflatten_apply {α : Type} (y : (⟨2, ![8192, 1024]⟩ : Shape).Idx → α)
    (h : (⟨2, ![8192, 1024]⟩ : Shape).ShapeCasts ⟨3, ![4, 2048, 1024]⟩) (b : Fin 4) (s : Fin 2048) (d : Fin 1024)
    (r : Fin 8192) (hr : r.val = b.val * 2048 + s.val) :
    shapeCast ⟨3, ![4, 2048, 1024]⟩ y h (ix3 b s d) = y (ix2 r d) :=
  shapeCast_apply y h _ _ (by
    rw [Shape.rowMajor_val_three, Shape.rowMajor_val_two]
    show r.val * 1024 + d.val = (b.val * 2048 + s.val) * 1024 + d.val
    rw [hr])

/-- A vector laid out as a table of one row: entry (0, f) is entry f. -/
theorem row_apply {α : Type} {n : Nat} (x : (⟨1, ![n]⟩ : Shape).Idx → α)
    (h : (⟨1, ![n]⟩ : Shape).ShapeCasts ⟨2, ![1, n]⟩) (f : Fin n) :
    shapeCast ⟨2, ![1, n]⟩ x h (ix2 (0 : Fin 1) f) = x (ix1 f) :=
  shapeCast_apply x h _ _ (by
    rw [Shape.rowMajor_val_one, Shape.rowMajor_val_two]
    show f.val = 0 * n + f.val
    omega)

end Cert.Spec

end
-- ==== Proof.KTail.lean ====
/-
  The kernel program's result as a function of its arguments.

  Before the region the host flattens the input to 8192 rows and narrows it and the two weight matrices to the
  sixteen-bit format (the identity on extended reals), and lays each of the five vectors out as a table of one row;
  after the region it splits the 8192 rows back into 4 × 2048. Read through these changes of layout, the array the
  region leaves is the block applied to every input row: the program's result is `G3` of its arguments.
-/
import proofs.«102252_j39960375722236_1_alg».proof.Proof.KBlocks
import proofs.«102252_j39960375722236_1_alg».proof.Proof.Whole
import Idealize.ShloMosaic.Lib.StableHlo.Run

set_option maxRecDepth 16384

noncomputable section

namespace Cert.KernelIdeal.Tail

open Cert.KernelIdeal Cert.KernelIdeal.Gen Cert.KernelIdeal.Blocks Idealize.ShloMosaic Idealize.ShloMosaic.TcCoe Idealize.ShloMosaic.ValueIdx Idealize.SL.Sem

variable (m : (ℓ : Loc nD τ sig) → Buf (Elt Ideal) ℓ) (ρ : Dev nD → PrngReg)

/-- The flattened, narrowed input as the region finds it. -/
theorem V_v1 (c : Dev nD) : (V m c main_v1 : S8192x1024.Idx → EReal)
    = truncf (F := Ideal) .bf16 (shapeCast S8192x1024 (m ((c : Thread nD τ).loc main_arg0)) shapeCasts_S4x2048x1024_S8192x1024) bitsLt_bf16_f32 := by
  show StableHlo.after hostOps0 (fun b => m (c, b)) (Proc.devRef .tc main_v1) = _
  after_results
  rfl

/-- The narrowed first weight matrix. -/
theorem V_v2 (c : Dev nD) : (V m c main_v2 : S1024x4096.Idx → EReal)
    = truncf (F := Ideal) .bf16 (m ((c : Thread nD τ).loc main_arg1)) bitsLt_bf16_f32 := by
  show StableHlo.after hostOps0 (fun b => m (c, b)) (Proc.devRef .tc main_v2) = _
  after_results
/-- The narrowed second weight matrix. -/
theorem V_v3 (c : Dev nD) : (V m c main_v3 : S4096x1024.Idx → EReal)
    = truncf (F := Ideal) .bf16 (m ((c : Thread nD τ).loc main_arg6)) bitsLt_bf16_f32 := by
  show StableHlo.after hostOps0 (fun b => m (c, b)) (Proc.devRef .tc main_v3) = _
  after_results
/-- The first bias as one row. -/
theorem V_v4 (c : Dev nD) : (V m c main_v4 : S1x4096.Idx → EReal)
    = shapeCast S1x4096 (m ((c : Thread nD τ).loc main_arg2)) shapeCasts_S4096_S1x4096 := by
  show StableHlo.after hostOps0 (fun b => m (c, b)) (Proc.devRef .tc main_v4) = _
  after_results
  rfl
/-- The phases as one row. -/
theorem V_v5 (c : Dev nD) : (V m c main_v5 : S1x4096.Idx → EReal)
    = shapeCast S1x4096 (m ((c : Thread nD τ).loc main_arg3)) shapeCasts_S4096_S1x4096 := by
  show StableHlo.after hostOps0 (fun b => m (c, b)) (Proc.devRef .tc main_v5) = _
  after_results
  rfl
/-- The real weights as one row. -/
theorem V_v6 (c : Dev nD) : (V m c main_v6 : S1x4096.Idx → EReal)
    = shapeCast S1x4096 (m ((c : Thread nD τ).loc main_arg4)) shapeCasts_S4096_S1x4096 := by
  show StableHlo.after hostOps0 (fun b => m (c, b)) (Proc.devRef .tc main_v6) = _
  after_results
  rfl
/-- The imaginary weights as one row. -/
theorem V_v7 (c : Dev nD) : (V m c main_v7 : S1x4096.Idx → EReal)
    = shapeCast S1x4096 (m ((c : Thread nD τ).loc main_arg5)) shapeCasts_S4096_S1x4096 := by
  show StableHlo.after hostOps0 (fun b => m (c, b)) (Proc.devRef .tc main_v7) = _
  after_results
  rfl
/-- The second bias as one row. -/
theorem V_v8 (c : Dev nD) : (V m c main_v8 : S1x1024.Idx → EReal)
    = shapeCast S1x1024 (m ((c : Thread nD τ).loc main_arg7)) shapeCasts_S1024_S1x1024 := by
  show StableHlo.after hostOps0 (fun b => m (c, b)) (Proc.devRef .tc main_v8) = _
  after_results
  rfl

/-- The flat result of the flattened, narrowed and re-laid arguments, split back into 4 × 2048 rows, is `G3` of the
    arguments. -/
theorem split_G2 (x : S4x2048x1024.Idx → EReal) (W1 : S1024x4096.Idx → EReal) (b1 θ wr wi : S4096.Idx → EReal)
    (W2 : S4096x1024.Idx → EReal) (b2 : S1024.Idx → EReal) :
    shapeCast S4x2048x1024 (G2 (truncf (F := Ideal) .bf16 (shapeCast S8192x1024 x shapeCasts_S4x2048x1024_S8192x1024) bitsLt_bf16_f32)
        (truncf (F := Ideal) .bf16 W1 bitsLt_bf16_f32) (shapeCast S1x4096 b1 shapeCasts_S4096_S1x4096)
        (shapeCast S1x4096 θ shapeCasts_S4096_S1x4096) (shapeCast S1x4096 wr shapeCasts_S4096_S1x4096)
        (shapeCast S1x4096 wi shapeCasts_S4096_S1x4096) (truncf (F := Ideal) .bf16 W2 bitsLt_bf16_f32)
        (shapeCast S1x1024 b2 shapeCasts_S1024_S1x1024)) shapeCasts_S8192x1024_S4x2048x1024
      = Cert.Spec.G3 x W1 b1 θ wr wi W2 b2 := by
  funext i
  obtain ⟨b, s, d, rfl⟩ : ∃ (b : Fin 4) (s : Fin 2048) (d : Fin 1024), i = ix3 b s d := ⟨i 0, i 1, i 2, eq_ix3 i⟩
  have hb := b.isLt
  have hs := s.isLt
  rw [Cert.Spec.unflatten_apply _ _ b s d ⟨b.val * 2048 + s.val, by omega⟩ rfl]
  unfold G2 Cert.Spec.G3
  refine Cert.Spec.rowOut_congr (fun k => ?_) (fun k f => ?_) (fun f => ?_) (fun f => ?_) (fun f => ?_) (fun f => ?_) (fun f d => ?_) (fun d => ?_) rfl
  · rw [truncf_apply]; exact Cert.Spec.flatten_apply x _ b s k _ rfl
  · rw [truncf_apply]
  · exact Cert.Spec.row_apply b1 _ f
  · exact Cert.Spec.row_apply θ _ f
  · exact Cert.Spec.row_apply wr _ f
  · exact Cert.Spec.row_apply wi _ f
  · rw [truncf_apply]
  · exact Cert.Spec.row_apply b2 _ d

/-- The program's result buffer after the lines that follow the region: the region's array split back into 4 × 2048 rows. -/
theorem tail_eq (c : Dev nD) :
    Pipeline.afterTail₀ cfgs (dats m) 0 (V0 m) [hostOps1] c main_v10
      = shapeCast S4x2048x1024 ((dats m 0 c).arrAt 8 cfg0.N) shapeCasts_S8192x1024_S4x2048x1024 := by
  unfold Pipeline.afterTail₀
  show StableHlo.after hostOps1 _ (Proc.devRef .tc main_v10) = _
  after_results
  have e := Pipeline.withArrays_arr spec0 launch0.win.arr_inj c (V0 m c) (fun w => (dats m 0 c).arrAt w cfg0.N) 8
  funext i
  exact congrFun (congrArg (fun A => shapeCast S4x2048x1024 A shapeCasts_S8192x1024_S4x2048x1024) e) i

/-- The program's result buffer is `G3` of the arguments. -/
theorem result_eq (c : Dev nD) :
    Pipeline.afterTail₀ cfgs (dats m) 0 (V0 m) [hostOps1] c main_v10
      = Cert.Spec.G3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [tail_eq, final8, V_v1, V_v2, V_v3, V_v4, V_v5, V_v6, V_v7, V_v8]
  exact split_G2 _ _ _ _ _ _ _ _

/-- THE RUN, READ: every weakly fair execution of the kernel program terminates with its result at `G3` of the arguments
    and the arguments unchanged. -/
theorem run : θ_run defs (onTc (τ := τ) (main (F := Ideal))) ⟨m, fun _ => 0, ρ⟩ fun r => ∀ c : Dev nD,
      r.2.mem ((c.tc : Thread nD τ).loc main_v10) = Cert.Spec.G3 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v10 (Pipeline.mem_restRefs_of main_v10 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Tail

end
-- ==== Proof.RefValue.lean ====
/-
  The reference computes the specification.

  Read one operation at a time at an entry (b, s, d): the einsum contracts the input's last axis against the first
  weight matrix, the bias and the three per-channel parameters are broadcast along the two leading axes, the sine and
  cosine are applied entry by entry, the rectifier is the maximum with the zero word, and the second einsum contracts
  the 4096 hidden channels. The resulting expression is the specification's, in the same association.
-/
import proofs.«102252_j39960375722236_1_alg».proof.Proof.Gen.ReferenceIdeal.Read
import proofs.«102252_j39960375722236_1_alg».proof.Proof.Whole

noncomputable section

namespace Cert.ReferenceIdeal.RefValue

open Cert.ReferenceIdeal Cert.ReferenceIdeal.Read Idealize.ShloMosaic Idealize.ShloMosaic.ValueIdx

/-! The composed index maps of the layout operations, named by coordinates. -/

theorem lidx0 (j : S4x2048x4096.Idx) (k : Fin 1024) : lidx_main_v0 j k = ix3 (j 0) (j 1) k :=
  funext fun a => Fin.ext (by match a with | ⟨0, _⟩ => rfl | ⟨1, _⟩ => rfl | ⟨2, _⟩ => rfl)
theorem ridx0 (j : S4x2048x4096.Idx) (k : Fin 1024) : ridx_main_v0 j k = ix2 k (j 2) :=
  funext fun a => Fin.ext (by match a with | ⟨0, _⟩ => rfl | ⟨1, _⟩ => rfl)
theorem idx_b1 (j : S4x2048x4096.Idx) : idx_main_v1 (idx_main_v2 j) = ix1 (j 2) :=
  funext fun a => Fin.ext (by match a with | ⟨0, _⟩ => rfl)
theorem idx_theta (j : S4x2048x4096.Idx) : idx_main_v6 (idx_main_v7 j) = ix1 (j 2) :=
  funext fun a => Fin.ext (by match a with | ⟨0, _⟩ => rfl)
theorem idx_wi (j : S4x2048x4096.Idx) : idx_main_v10 (idx_main_v11 j) = ix1 (j 2) :=
  funext fun a => Fin.ext (by match a with | ⟨0, _⟩ => rfl)
theorem idx_phase (j : S4x2048x4096.Idx) : idx_main_v18 (idx_main_v19 j) = ix1 (j 2) :=
  funext fun a => Fin.ext (by match a with | ⟨0, _⟩ => rfl)
theorem lidx25 (i : S4x2048x1024.Idx) (f : Fin 4096) : lidx_main_v25 i f = ix3 (i 0) (i 1) f :=
  funext fun a => Fin.ext (by match a with | ⟨0, _⟩ => rfl | ⟨1, _⟩ => rfl | ⟨2, _⟩ => rfl)
theorem ridx25 (i : S4x2048x1024.Idx) (f : Fin 4096) : ridx_main_v25 i f = ix2 f (i 2) :=
  funext fun a => Fin.ext (by match a with | ⟨0, _⟩ => rfl | ⟨1, _⟩ => rfl)
theorem idx_b2 (i : S4x2048x1024.Idx) : idx_main_v26 (idx_main_v27 i) = ix1 (i 2) :=
  funext fun a => Fin.ext (by match a with | ⟨0, _⟩ => rfl)

/-- The first affine layer at entry `j` of the 4 × 2048 × 4096 hidden array. -/
theorem hidden_apply (x0 : S4x2048x1024.Idx → EReal) (x1 : S1024x4096.Idx → EReal) (x2 : S4096.Idx → EReal) (j : S4x2048x4096.Idx) :
    val_main_v3 (F := Ideal) x0 x1 x2 j
      = Cert.Spec.hidden (fun k => x0 (ix3 (j 0) (j 1) k)) (fun k f => x1 (ix2 k f)) (fun f => x2 (ix1 f)) (j 2) := by
  rw [val_main_v3_apply, val_main_v0_apply, val_main_v2_apply, val_main_v1_apply, idx_b1]
  simp only [lidx0, ridx0]
  rfl

/-- The rectified phase transform at entry `j`. -/
theorem act_apply (x0 : S4x2048x1024.Idx → EReal) (x1 : S1024x4096.Idx → EReal) (x2 x3 x4 x5 : S4096.Idx → EReal) (j : S4x2048x4096.Idx) :
    val_main_v24 (F := Ideal) x0 x1 x2 x3 x4 x5 j
      = Cert.Spec.act (Cert.Spec.hidden (fun k => x0 (ix3 (j 0) (j 1) k)) (fun k f => x1 (ix2 k f)) (fun f => x2 (ix1 f)) (j 2))
          (x3 (ix1 (j 2))) (x4 (ix1 (j 2))) (x5 (ix1 (j 2))) := by
  simp only [val_main_v24_apply, val_main_v23_apply, val_main_v22_apply, val_main_v21_apply, val_main_cst_0_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_cst_apply, val_main_call0_v0_apply,
    val_main_call0_cst_apply, hidden_apply, idx_theta, idx_wi, idx_phase]
  rfl

/-- The reference's result is `G3` of its arguments. -/
theorem result_eq (x0 : S4x2048x1024.Idx → EReal) (x1 : S1024x4096.Idx → EReal) (x2 x3 x4 x5 : S4096.Idx → EReal)
    (x6 : S4096x1024.Idx → EReal) (x7 : S1024.Idx → EReal) :
    val_main_v28 (F := Ideal) x0 x1 x2 x3 x4 x5 x6 x7 = Cert.Spec.G3 x0 x1 x2 x3 x4 x5 x6 x7 := by
  funext i
  rw [val_main_v28_apply, val_main_v25_apply, val_main_v27_apply, val_main_v26_apply, idx_b2]
  unfold Cert.Spec.G3 Cert.Spec.rowOut
  refine congrArg₂ (· + ·) (Finset.sum_congr rfl fun f _ => ?_) rfl
  rw [act_apply, lidx25, ridx25]
  rfl

end Cert.ReferenceIdeal.RefValue

end
-- ==== Proof.lean ====
/-
  The certificate's claim, assembled.

  Both idealized programs compute one function of the eight arguments, `Cert.Spec.G3`: entry (b, s, d) of the result is
  the two-layer feed-forward block with the phase transform and the rectifier between the layers, applied to input row
  (b, s). The kernel program reaches it block by block over 32 grid points of 256 rows each, between a host flattening
  and a host split of the rows; the reference reaches it by two einsums over the whole arrays. The two sides form the
  same expression in the same association, so they agree on all extended reals and the precondition is not used.
  The three frames are the generated frame runs (the reference's is its run with the result dropped), and the
  idealization rewrote no operation.
-/
import proofs.«102252_j39960375722236_1_alg».proof.Defs
import proofs.«102252_j39960375722236_1_alg».proof.Proof.Gen.Kernel
import proofs.«102252_j39960375722236_1_alg».proof.Proof.Gen.Kernel.Skeleton
import proofs.«102252_j39960375722236_1_alg».proof.Proof.Gen.Kernel.Launch
import proofs.«102252_j39960375722236_1_alg».proof.Proof.Gen.Kernel.Points
import proofs.«102252_j39960375722236_1_alg».proof.Proof.Gen.Kernel.Frame
import proofs.«102252_j39960375722236_1_alg».proof.Proof.Gen.KernelIdeal
import proofs.«102252_j39960375722236_1_alg».proof.Proof.Gen.KernelIdeal.Skeleton
import proofs.«102252_j39960375722236_1_alg».proof.Proof.Gen.KernelIdeal.Launch
import proofs.«102252_j39960375722236_1_alg».proof.Proof.Gen.KernelIdeal.Points
import proofs.«102252_j39960375722236_1_alg».proof.Proof.Gen.KernelIdeal.Frame
import proofs.«102252_j39960375722236_1_alg».proof.Proof.Gen.ReferenceIdeal
import proofs.«102252_j39960375722236_1_alg».proof.Proof.Gen.ReferenceIdeal.Run
import proofs.«102252_j39960375722236_1_alg».proof.Proof.Gen.ReferenceIdeal.Read
import proofs.«102252_j39960375722236_1_alg».proof.Proof.Gen.Pre_finite_inputs
import proofs.«102252_j39960375722236_1_alg».proof.Proof.KTail
import proofs.«102252_j39960375722236_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with `G3` of the arguments in their result. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v28_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
